-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S64x64x3x3 : Shape := ⟨4, ![64, 64, 3, 3]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S4x64x28x28 .f32) (main_arg1 : FVec F S64x64x3x3 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S4x64x28x28 : Shape := ⟨4, ![4, 64, 28, 28]⟩
abbrev S64x64x3x3 : Shape := ⟨4, ![64, 64, 3, 3]⟩
abbrev S_ : Shape := ⟨0, ![]⟩
abbrev S4x64x30x30 : Shape := ⟨4, ![4, 64, 30, 30]⟩
abbrev S1x64x30x30 : Shape := ⟨4, ![1, 64, 30, 30]⟩
abbrev S1x64x28x28 : Shape := ⟨4, ![1, 64, 28, 28]⟩
abbrev S64x30x30 : Shape := ⟨3, ![64, 30, 30]⟩
abbrev S64x28x28 : Shape := ⟨3, ![64, 28, 28]⟩
abbrev S64x64x1x1 : Shape := ⟨4, ![64, 64, 1, 1]⟩
abbrev S64x64 : Shape := ⟨2, ![64, 64]⟩
abbrev S64x64x28x28 : Shape := ⟨4, ![64, 64, 28, 28]⟩

abbrev nBuf : Space → Nat
  | .hbm => 6
  | .vmem => 5
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S4x64x28x28, .f32⟩
  | .local _ .vmem, ⟨0, _⟩ => ⟨S1x64x30x30, .f32⟩
  | .local _ .vmem, ⟨1, _⟩ => ⟨S1x64x30x30, .f32⟩
  | .local _ .vmem, ⟨2, _⟩ => ⟨S64x64x3x3, .f32⟩
  | .local _ .vmem, ⟨3, _⟩ => ⟨S1x64x28x28, .f32⟩
  | .local _ .vmem, ⟨4, _⟩ => ⟨S1x64x28x28, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x30x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64x3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x28x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  inb_S1x64x30x30_S1x64x30x30_0_0_0_0 : ∀ a, (![0, 0, 0, 0] : Fin 4 → Nat) a + S1x64x30x30.size a ≤ S1x64x30x30.size a
  h_S1x64x30x30 : 0 < S1x64x30x30.numel
  shapeCasts_S1x64x30x30_S64x30x30 : S1x64x30x30.ShapeCasts S64x30x30
  inb_S64x64x3x3_S64x64x3x3_0_0_0_0 : ∀ a, (![0, 0, 0, 0] : Fin 4 → Nat) a + S64x64x3x3.size a ≤ S64x64x3x3.size a
  h_S64x64x3x3 : 0 < S64x64x3x3.numel
  slices_S64x30x30_o0_0_0_S64x28x28 : S64x30x30.Slices ![0, 0, 0] S64x28x28
  slices_S64x64x3x3_o0_0_0_0_S64x64x1x1 : S64x64x3x3.Slices ![0, 0, 0, 0] S64x64x1x1
  shapeCasts_S64x64x1x1_S64x64 : S64x64x1x1.ShapeCasts S64x64
  shapeCasts_S64x64_S64x64x1x1 : S64x64.ShapeCasts S64x64x1x1
  shapeCasts_S64x28x28_S1x64x28x28 : S64x28x28.ShapeCasts S1x64x28x28
  broadcasts_S64x64x1x1_S64x64x28x28 : S64x64x1x1.Broadcasts S64x64x28x28
  broadcasts_S1x64x28x28_S64x64x28x28 : S1x64x28x28.Broadcasts S64x64x28x28
  reduces_S64x64x28x28_S64x28x28 : S64x64x28x28.Reduces [1] S64x28x28
  slices_S64x30x30_o0_0_1_S64x28x28 : S64x30x30.Slices ![0, 0, 1] S64x28x28
  slices_S64x64x3x3_o0_0_0_1_S64x64x1x1 : S64x64x3x3.Slices ![0, 0, 0, 1] S64x64x1x1
  slices_S64x30x30_o0_0_2_S64x28x28 : S64x30x30.Slices ![0, 0, 2] S64x28x28
  slices_S64x64x3x3_o0_0_0_2_S64x64x1x1 : S64x64x3x3.Slices ![0, 0, 0, 2] S64x64x1x1
  slices_S64x30x30_o0_1_0_S64x28x28 : S64x30x30.Slices ![0, 1, 0] S64x28x28
  slices_S64x64x3x3_o0_0_1_0_S64x64x1x1 : S64x64x3x3.Slices ![0, 0, 1, 0] S64x64x1x1
  slices_S64x30x30_o0_1_1_S64x28x28 : S64x30x30.Slices ![0, 1, 1] S64x28x28
  slices_S64x64x3x3_o0_0_1_1_S64x64x1x1 : S64x64x3x3.Slices ![0, 0, 1, 1] S64x64x1x1
  slices_S64x30x30_o0_1_2_S64x28x28 : S64x30x30.Slices ![0, 1, 2] S64x28x28
  slices_S64x64x3x3_o0_0_1_2_S64x64x1x1 : S64x64x3x3.Slices ![0, 0, 1, 2] S64x64x1x1
  slices_S64x30x30_o0_2_0_S64x28x28 : S64x30x30.Slices ![0, 2, 0] S64x28x28
  slices_S64x64x3x3_o0_0_2_0_S64x64x1x1 : S64x64x3x3.Slices ![0, 0, 2, 0] S64x64x1x1
  slices_S64x30x30_o0_2_1_S64x28x28 : S64x30x30.Slices ![0, 2, 1] S64x28x28
  slices_S64x64x3x3_o0_0_2_1_S64x64x1x1 : S64x64x3x3.Slices ![0, 0, 2, 1] S64x64x1x1
  slices_S64x30x30_o0_2_2_S64x28x28 : S64x30x30.Slices ![0, 2, 2] S64x28x28
  slices_S64x64x3x3_o0_0_2_2_S64x64x1x1 : S64x64x3x3.Slices ![0, 0, 2, 2] S64x64x1x1
  inb_S1x64x28x28_S1x64x28x28_0_0_0_0 : ∀ a, (![0, 0, 0, 0] : Fin 4 → Nat) a + S1x64x28x28.size a ≤ S1x64x28x28.size a
  h_S1x64x28x28 : 0 < S1x64x28x28.numel
  shapeCasts_S1x64x28x28_S64x28x28 : S1x64x28x28.ShapeCasts S64x28x28
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x30x30.size a ≤ S4x64x30x30.size a
  hwx0_0 : ∀ i : grid0.Coords, EltTy.bits .f32 = 32 ∨ (Rect.block (s := S4x64x30x30) S1x64x30x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64x3x3.size a ≤ S64x64x3x3.size a
  hwx0_1 : ∀ i : grid0.Coords, EltTy.bits .f32 = 32 ∨ (Rect.block (s := S64x64x3x3) S64x64x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x28x28.size a ≤ S4x64x28x28.size a
  hwx0_2 : ∀ i : grid0.Coords, EltTy.bits .f32 = 32 ∨ (Rect.block (s := S4x64x28x28) S1x64x28x28.size (cc0_transform_2 i) (hinb0_2 i)).WholeWords (EltTy.packing .f32)

variable [Facts₀]

abbrev win0_0 : Pipeline.Window sig grid0 :=
  Pipeline.Window.ofSpec (Memref.whole main_v0) S1x64x30x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x28x28.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x28x28 : Shape := ⟨4, ![4, 64, 28, 28]⟩
abbrev S64x64x3x3 : Shape := ⟨4, ![64, 64, 3, 3]⟩
abbrev S_ : Shape := ⟨0, ![]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S64x576x1 : Shape := ⟨3, ![64, 576, 1]⟩
abbrev S1x576x3136 : Shape := ⟨3, ![1, 576, 3136]⟩
abbrev S64x576x3136 : Shape := ⟨3, ![64, 576, 3136]⟩
abbrev S64x3136 : Shape := ⟨2, ![64, 3136]⟩
abbrev S64x28x28x4 : Shape := ⟨4, ![64, 28, 28, 4]⟩

abbrev nBuf : Space → Nat
  | .hbm => 39
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x30x30, .f32⟩
  | .hbm, ⟨5, _⟩ => ⟨S4x64x28x28, .f32⟩
  | .hbm, ⟨6, _⟩ => ⟨S4x64x28x28, .f32⟩
  | .hbm, ⟨7, _⟩ => ⟨S4x64x28x28, .f32⟩
  | .hbm, ⟨8, _⟩ => ⟨S4x64x28x28, .f32⟩
  | .hbm, ⟨9, _⟩ => ⟨S4x64x28x28, .f32⟩
  | .hbm, ⟨10, _⟩ => ⟨S4x64x28x28, .f32⟩
  | .hbm, ⟨11, _⟩ => ⟨S4x64x28x28, .f32⟩
  | .hbm, ⟨12, _⟩ => ⟨S4x64x28x28, .f32⟩
  | .hbm, ⟨13, _⟩ => ⟨S4x64x28x28, .f32⟩
  | .hbm, ⟨14, _⟩ => ⟨S4x64x1x28x28, .f32⟩
  | .hbm, ⟨15, _⟩ => ⟨S4x64x1x28x28, .f32⟩
  | .hbm, ⟨16, _⟩ => ⟨S4x64x1x28x28, .f32⟩
  | .hbm, ⟨17, _⟩ => ⟨S4x64x1x28x28, .f32⟩
  | .hbm, ⟨18, _⟩ => ⟨S4x64x1x28x28, .f32⟩
  | .hbm, ⟨19, _⟩ => ⟨S4x64x1x28x28, .f32⟩
  | .hbm, ⟨20, _⟩ => ⟨S4x64x1x28x28, .f32⟩
  | .hbm, ⟨21, _⟩ => ⟨S4x64x1x28x28, .f32⟩
  | .hbm, ⟨22, _⟩ => ⟨S4x64x1x28x28, .f32⟩
  | .hbm, ⟨23, _⟩ => ⟨S4x64x9x28x28, .f32⟩
  | .hbm, ⟨24, _⟩ => ⟨S4x576x784, .f32⟩
  | .hbm, ⟨25, _⟩ => ⟨S576x784x4, .f32⟩
  | .hbm, ⟨26, _⟩ => ⟨S576x3136, .f32⟩
  | .hbm, ⟨27, _⟩ => ⟨S64x576, .f32⟩
  | .hbm, ⟨28, _⟩ => ⟨S64x576x1, .f32⟩
  | .hbm, ⟨29, _⟩ => ⟨S1x576x3136, .f32⟩
  | .hbm, ⟨30, _⟩ => ⟨S64x576x3136, .f32⟩
  | .hbm, ⟨31, _⟩ => ⟨S64x576x3136, .f32⟩
  | .hbm, ⟨32, _⟩ => ⟨S64x576x3136, .f32⟩
  | .hbm, ⟨33, _⟩ => ⟨S64x576x3136, .f32⟩
  | .hbm, ⟨34, _⟩ => ⟨S_, .f32⟩
  | .hbm, ⟨35, _⟩ => ⟨S64x3136, .f32⟩
  | .hbm, ⟨36, _⟩ => ⟨S64x3136, .f32⟩
  | .hbm, ⟨37, _⟩ => ⟨S64x28x28x4, .f32⟩
  | .hbm, ⟨38, _⟩ => ⟨S4x64x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  pads_S4x64x28x28_S4x64x30x30_000_000_110_110 : S4x64x28x28.Pads (![0, 0, 1, 1] : Fin 4 → Nat) ![0, 0, 1, 1] ![0, 0, 0, 0] S4x64x30x30
  h_S_ : 0 < S_.numel
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  bcast_S64x576_S64x576x1_0_1 : S64x576.BroadcastsInDim S64x576x1 (![0, 1] : Fin 2 → Fin S64x576x1.rank)
  bcast_S576x3136_S1x576x3136_1_2 : S576x3136.BroadcastsInDim S1x576x3136 (![1, 2] : Fin 2 → Fin S1x576x3136.rank)
  bcast_S64x576x1_S64x576x3136_0_1_2 : S64x576x1.BroadcastsInDim S64x576x3136 (![0, 1, 2] : Fin 3 → Fin S64x576x3136.rank)
  bcast_S1x576x3136_S64x576x3136_0_1_2 : S1x576x3136.BroadcastsInDim S64x576x3136 (![0, 1, 2] : Fin 3 → Fin S64x576x3136.rank)
  reducesTo_S64x576x3136_S64x3136_d1 : S64x576x3136.ReducesTo [1] S64x3136
  shapeCasts_S64x3136_S64x28x28x4 : S64x3136.ShapeCasts S64x28x28x4
  transposes_S64x28x28x4_S4x64x28x28_3_0_1_2 : S64x28x28x4.Transposes [3, 0, 1, 2] S4x64x28x28

variable [Facts₀]

class Facts : Prop extends Facts₀ where

variable [Facts]
-- ==== Proof.AdderSpec.lean ====
/-
  The mathematics of an "adder" layer, stated once with no program in sight.

  Input: a zero-padded activation array `xp` of shape [4, 64, 30, 30] (batch, channel, padded row, padded column)
  and a filter bank `wt` of shape [64, 64, 3, 3] (filter, channel, window row, window column). Output, of shape
  [4, 64, 28, 28]: at (n, f, h, w) the NEGATED L1 distance between filter `f` and the 64 × 3 × 3 patch of image `n`
  whose top-left corner is (h, w):

      adder xp wt (n, f, h, w) = -( ∑ p < 9, ∑ c < 64, | wt (f, c, p / 3, p % 3) - xp (n, c, h + p / 3, w + p % 3) | ).

  The nine window positions are numbered `p = 3 · (window row) + (window column)`. All arithmetic is on the
  extended reals, where `|a|` is `max a (-a)`; addition there is commutative and associative, which is all the two
  summation laws below use, so no finiteness of the entries is ever needed.

  Two ways of adding the same 576 terms are related to this double sum:
  • nine partial sums accumulated one after the other starting from zero, the total then subtracted from zero
    (`zero_sub_acc9`);
  • one sum over a flattened index `k < 576` with `k = 9 · c + p` (`sum_flat576`).
-/
import Idealize.ShloMosaic.PureOps.Ideal
import Idealize.ShloMosaic.Lib.ValueIdx
import Mathlib.Algebra.BigOperators.Fin
import Mathlib.Logic.Equiv.Fin.Basic

noncomputable section

open scoped BigOperators

namespace Cert.AdderSpec

open Idealize.ShloMosaic Idealize.ShloMosaic.ValueIdx

/-- The padded activations' shape. -/
abbrev SPad : Shape := ⟨4, ![4, 64, 30, 30]⟩
/-- The filter bank's shape. -/
abbrev SWt : Shape := ⟨4, ![64, 64, 3, 3]⟩
/-- The output's shape. -/
abbrev SOut : Shape := ⟨4, ![4, 64, 28, 28]⟩

/-- The absolute value on the extended reals. -/
def eabs (a : EReal) : EReal := max a (-a)

/-- One term of the distance: filter `f`, channel `c`, window position (kh, kw), against the padded image `n` at
    (h + kh, w + kw). -/
def tap (xp : SPad.Idx → EReal) (wt : SWt.Idx → EReal) (n : Fin 4) (f : Fin 64) (h w : Fin 28) (c : Fin 64)
    (kh kw : Fin 3) : EReal :=
  eabs (wt (ix4 f c kh kw) - xp (ix4 n c ⟨h.val + kh.val, by omega⟩ ⟨w.val + kw.val, by omega⟩))

/-- Window position `p < 9` is row `p / 3`. -/
abbrev winRow (p : Fin 9) : Fin 3 := ⟨p.val / 3, by omega⟩
/-- Window position `p < 9` is column `p % 3`. -/
abbrev winCol (p : Fin 9) : Fin 3 := ⟨p.val % 3, by omega⟩

/-- The layer: minus the sum over the nine window positions and the 64 channels of the taps. -/
def adder (xp : SPad.Idx → EReal) (wt : SWt.Idx → EReal) (i : SOut.Idx) : EReal :=
  -(∑ p : Fin 9, ∑ c : Fin 64, tap xp wt (i 0) (i 1) (i 2) (i 3) c (winRow p) (winCol p))

/-! ## Two ways of adding the same terms -/

section Sums
variable {M : Type*} [AddCommMonoid M]

/-- A sum over nine positions, written out. -/
theorem sum_nine (s : Fin 9 → M) :
    ∑ p, s p = s 0 + s 1 + s 2 + s 3 + s 4 + s 5 + s 6 + s 7 + s 8 := by
  rw [Fin.sum_univ_castSucc, Fin.sum_univ_eight]
  rfl

/-- A sum over `k < 576` is the double sum over `p < 9` and `c < 64` at `k = 9 · c + p`. -/
theorem sum_flat576 (g : Fin 576 → M) :
    ∑ k : Fin 576, g k = ∑ p : Fin 9, ∑ c : Fin 64, g ⟨9 * c.val + p.val, by omega⟩ := by
  rw [Finset.sum_comm]
  have e : ∑ k : Fin 576, g k = ∑ x : Fin 64 × Fin 9, g (finProdFinEquiv x) :=
    (Equiv.sum_comp (finProdFinEquiv : Fin 64 × Fin 9 ≃ Fin (64 * 9)) g).symm
  rw [e, Fintype.sum_prod_type]
  refine Finset.sum_congr rfl fun c _ => Finset.sum_congr rfl fun p _ => ?_
  congr 1
  apply Fin.ext
  show p.val + 9 * c.val = 9 * c.val + p.val
  omega

end Sums

/-- Nine partial sums accumulated from zero, the total taken from zero: minus their sum. -/
theorem zero_sub_acc9 (s : Fin 9 → EReal) :
    0 - (0 + s 0 + s 1 + s 2 + s 3 + s 4 + s 5 + s 6 + s 7 + s 8) = -(∑ p, s p) := by
  rw [sum_nine, zero_add, zero_sub]

end Cert.AdderSpec

end
-- ==== Proof.KernelTaps.lean ====
/-
  One grid point of the kernel, read at an index of its output block, over the extended reals.

  The body loads a padded image block `xb` of shape [1, 64, 30, 30] and the whole filter bank `wt` of shape
  [64, 64, 3, 3]. For each of the nine window positions (kh, kw) it slices the image block at row offset `kh` and column
  offset `kw` to [64, 28, 28], slices the filters at (kh, kw) to [64, 64], broadcasts both to [64, 64, 28, 28]
  (filter, channel, row, column), takes the absolute difference and sums over the channel axis; the nine sums are
  accumulated from zero and the total is subtracted from zero.

  `lane` reads ONE of the nine channel sums at (f, h, w): it is `∑ c, | wt (f, c, kh, kw) - xb (0, c, h + kh, w + kw) |`.
  Each operand of the difference reaches the loaded arrays through a chain of re-layings — a broadcast, shape casts that
  add or drop a unit axis, a slice — and each link moves the index in the evident way.

  `block_eq` puts the nine together: the block the point leaves is, at (0, f, h, w), minus the sum over the nine
  window positions and the 64 channels of those absolute differences — the layer's formula with the image block in
  place of the whole padded array.
-/
import proofs.«163276_j24472723653052_1_alg».proof.Proof.Gen.KernelIdeal.Value
import proofs.«163276_j24472723653052_1_alg».proof.Proof.AdderSpec
import Idealize.ShloMosaic.Lib.ValueLayout
import Idealize.ShloMosaic.PureOps.Ideal.Laws

noncomputable section

open scoped BigOperators

namespace Cert.KernelIdeal.Taps

open Cert.KernelIdeal Idealize.ShloMosaic Idealize.ShloMosaic.ValueIdx Cert.AdderSpec

variable [Cert.KernelIdeal.Facts]
open Cert.KernelIdeal.Facts₀ Cert.KernelIdeal.Facts

/-- The channel sum for window position (kh, kw), at output position (f, h, w) = `j`: the sum over the 64 channels of
    `| wt (f, c, kh, kw) - xb (0, c, h + kh, w + kw) |`. -/
theorem lane (kh kw : Nat) (hkh : kh < 3) (hkw : kw < 3)
    (P0 : Vec Ideal S64x64x3x3 .f32) (P1 : Vec Ideal S1x64x30x30 .f32)
    (hW : S64x64x3x3.Slices ![0, 0, kh, kw] S64x64x1x1) (hX : S64x30x30.Slices ![0, kh, kw] S64x28x28)
    (j : S64x28x28.Idx) :
    multiReduction (F := Ideal) .add [1] S64x28x28 (absf (subf
        (broadcastTo S64x64x28x28 (shapeCast S64x64x1x1 (shapeCast S64x64 (extractStridedSlice S64x64x1x1 ![0, 0, kh, kw] P0 hW) shapeCasts_S64x64x1x1_S64x64) shapeCasts_S64x64_S64x64x1x1) broadcasts_S64x64x1x1_S64x64x28x28)
        (broadcastTo S64x64x28x28 (shapeCast S1x64x28x28 (extractStridedSlice S64x28x28 ![0, kh, kw] (shapeCast S64x30x30 P1 shapeCasts_S1x64x30x30_S64x30x30) hX) shapeCasts_S64x28x28_S1x64x28x28) broadcasts_S1x64x28x28_S64x64x28x28)))
      0x00000000#32 reduces_S64x64x28x28_S64x28x28 (.inl rfl) rfl j
    = ∑ c : Fin 64, eabs (P0 (ix4 (j 0) c ⟨kh, hkh⟩ ⟨kw, hkw⟩)
        - P1 (ix4 (0 : Fin 1) c ⟨(j 1).val + kh, by have h1 : (j 1).val < 28 := (j 1).isLt; omega⟩ ⟨(j 2).val + kw, by have h2 : (j 2).val < 28 := (j 2).isLt; omega⟩)) := by
  -- the reduction over the channel axis is the sum over the channel coordinate inserted at position 1
  refine (Ideal.multiReduction_add_single _ _ reduces_S64x64x28x28_S64x28x28 _ _ j).trans ?_
  refine Finset.sum_congr rfl fun (c : Fin 64) _ => ?_
  have hj0 : (j 0).val < 64 := (j 0).isLt
  have hj1 : (j 1).val < 28 := (j 1).isLt
  have hj2 : (j 2).val < 28 := (j 2).isLt
  -- the filter entry: the broadcast reads the slice at (f, c, 0, 0), the two casts cancel, the slice shifts by (kh, kw)
  have eW : broadcastTo S64x64x28x28 (shapeCast S64x64x1x1 (shapeCast S64x64 (extractStridedSlice S64x64x1x1 ![0, 0, kh, kw] P0 hW) shapeCasts_S64x64x1x1_S64x64) shapeCasts_S64x64_S64x64x1x1) broadcasts_S64x64x1x1_S64x64x28x28
        (reduces_S64x64x28x28_S64x28x28.lift j c) = P0 (ix4 (j 0) c ⟨kh, hkh⟩ ⟨kw, hkw⟩) := by
    refine (broadcastTo_apply _ broadcasts_S64x64x1x1_S64x64x28x28 _ (ix4 (j 0) c (0 : Fin 1) (0 : Fin 1)) (fun a => match a with
      | ⟨0, _⟩ => by show (j 0).val = if (64 : Nat) = 1 then 0 else (j 0).val; rw [if_neg (by decide)]
      | ⟨1, _⟩ => by show c.val = if (64 : Nat) = 1 then 0 else c.val; rw [if_neg (by decide)]
      | ⟨2, _⟩ => by show 0 = if (1 : Nat) = 1 then 0 else (j 1).val; rw [if_pos rfl]
      | ⟨3, _⟩ => by show 0 = if (1 : Nat) = 1 then 0 else (j 2).val; rw [if_pos rfl])).trans ?_
    refine (congrFun (shapeCast_shapeCast _ shapeCasts_S64x64x1x1_S64x64 shapeCasts_S64x64_S64x64x1x1) _).trans ?_
    exact extractStridedSlice_apply ![0, 0, kh, kw] P0 hW _ (ix4 (j 0) c ⟨kh, hkh⟩ ⟨kw, hkw⟩) (fun a => match a with
      | ⟨0, _⟩ => by show (j 0).val = 0 + (j 0).val; omega
      | ⟨1, _⟩ => by show c.val = 0 + c.val; omega
      | ⟨2, _⟩ => by show kh = kh + 0; omega
      | ⟨3, _⟩ => by show kw = kw + 0; omega)
  -- the activation: the broadcast reads the block at (0, c, h, w), the cast drops the unit axis, the slice shifts rows
  -- and columns by (kh, kw), the last cast puts the unit axis back
  have eX : broadcastTo S64x64x28x28 (shapeCast S1x64x28x28 (extractStridedSlice S64x28x28 ![0, kh, kw] (shapeCast S64x30x30 P1 shapeCasts_S1x64x30x30_S64x30x30) hX) shapeCasts_S64x28x28_S1x64x28x28) broadcasts_S1x64x28x28_S64x64x28x28
        (reduces_S64x64x28x28_S64x28x28.lift j c)
      = P1 (ix4 (0 : Fin 1) c ⟨(j 1).val + kh, by omega⟩ ⟨(j 2).val + kw, by omega⟩) := by
    refine (broadcastTo_apply _ broadcasts_S1x64x28x28_S64x64x28x28 _ (ix4 (0 : Fin 1) c (j 1) (j 2)) (fun a => match a with
      | ⟨0, _⟩ => by show 0 = if (1 : Nat) = 1 then 0 else (j 0).val; rw [if_pos rfl]
      | ⟨1, _⟩ => by show c.val = if (64 : Nat) = 1 then 0 else c.val; rw [if_neg (by decide)]
      | ⟨2, _⟩ => by show (j 1).val = if (28 : Nat) = 1 then 0 else (j 1).val; rw [if_neg (by decide)]
      | ⟨3, _⟩ => by show (j 2).val = if (28 : Nat) = 1 then 0 else (j 2).val; rw [if_neg (by decide)])).trans ?_
    refine (shapeCast_abc_1abc_apply _ shapeCasts_S64x28x28_S1x64x28x28 (0 : Fin 1) c (j 1) (j 2)).trans ?_
    refine (extractStridedSlice_apply ![0, kh, kw] _ hX (ix3 c (j 1) (j 2))
      (ix3 c (⟨(j 1).val + kh, by omega⟩ : Fin 30) (⟨(j 2).val + kw, by omega⟩ : Fin 30)) (fun a => match a with
      | ⟨0, _⟩ => by show c.val = 0 + c.val; omega
      | ⟨1, _⟩ => by show (j 1).val + kh = kh + (j 1).val; omega
      | ⟨2, _⟩ => by show (j 2).val + kw = kw + (j 2).val; omega)).trans ?_
    exact shapeCast_1abc_abc_apply P1 shapeCasts_S1x64x30x30_S64x30x30 c _ _
  -- the absolute difference of the two
  exact congrArg₂ (fun a b : EReal => max (a - b) (-(a - b))) eW eX

open Cert.KernelIdeal.Value in
/-- The block a grid point leaves, at (0, f, h, w) = `y`: minus the sum over the nine window positions and the 64
    channels of `| wt (f, c, kh, kw) - xb (0, c, h + kh, w + kw) |`. The nine channel sums are `lane` at the nine
    offsets, in the order the body accumulates them (window position `p = 3 · kh + kw`), and the float zero the
    accumulation starts from and the total is taken from is the real number 0. -/
theorem block_eq (P0 : Vec Ideal S64x64x3x3 .f32) (P1 : Vec Ideal S1x64x30x30 .f32) (y : S1x64x28x28.Idx) :
    E2 (F := Ideal) P0 P1 y
      = -(∑ p : Fin 9, ∑ c : Fin 64, eabs (P0 (ix4 (y 1) c (winRow p) (winCol p))
          - P1 (ix4 (0 : Fin 1) c ⟨(y 2).val + (winRow p).val, by have h : (y 2).val < 28 := (y 2).isLt; omega⟩
              ⟨(y 3).val + (winCol p).val, by have h : (y 3).val < 28 := (y 3).isLt; omega⟩))) := by
  have hz : (Scalar.ofBits .f32 0x00000000#32 : Ideal .f32) = 0 := Ideal.ofBits_zero_f32
  refine Eq.trans ?_ (zero_sub_acc9 _)
  exact congrArg₂ (fun a b : EReal => a - b) hz
    (congrArg₂ (fun a b : EReal => a + b) (congrArg₂ (fun a b : EReal => a + b) (congrArg₂ (fun a b : EReal => a + b)
      (congrArg₂ (fun a b : EReal => a + b) (congrArg₂ (fun a b : EReal => a + b) (congrArg₂ (fun a b : EReal => a + b)
      (congrArg₂ (fun a b : EReal => a + b) (congrArg₂ (fun a b : EReal => a + b) (congrArg₂ (fun a b : EReal => a + b) hz
        (lane 0 0 (by omega) (by omega) P0 P1 _ _ (ix2_0 y)))
        (lane 0 1 (by omega) (by omega) P0 P1 _ _ (ix2_1 y)))
        (lane 0 2 (by omega) (by omega) P0 P1 _ _ (ix2_2 y)))
        (lane 1 0 (by omega) (by omega) P0 P1 _ _ (ix2_3 y)))
        (lane 1 1 (by omega) (by omega) P0 P1 _ _ (ix2_4 y)))
        (lane 1 2 (by omega) (by omega) P0 P1 _ _ (ix2_5 y)))
        (lane 2 0 (by omega) (by omega) P0 P1 _ _ (ix2_6 y)))
        (lane 2 1 (by omega) (by omega) P0 P1 _ _ (ix2_7 y)))
        (lane 2 2 (by omega) (by omega) P0 P1 _ _ (ix2_8 y)))

end Cert.KernelIdeal.Taps

end
-- ==== Proof.KernelArray.lean ====
/-
  From one grid point's block to the whole output array, over the extended reals.

  The grid has four points, one per image of the batch. At point `t` the pipeline stages block `t` of the padded
  activations (all of image `t`: [1, 64, 30, 30] of [4, 64, 30, 30]), the whole filter bank at every point, and writes
  the body's [1, 64, 28, 28] result back as block `t` of the [4, 64, 28, 28] output.

  • `out_eq`: the block a point leaves, as a function of the two staged blocks, is the layer's formula read on the
    image block (the previous module, through the whole-buffer load and the single covering store).
  • `idx_facts`, `idx_onto`: the three index maps over the four points — the image block and the output block move
    together along the batch axis, everything else is block 0; every batch index is some point's.
  • `flushed_eq`: what point `t` writes back is block `t` of the layer's formula `adder` of the WHOLE padded array and the
    filter bank: entry (0, c, a, b) of image block `t` is entry (t, c, a, b) of the padded array, and output block
    entry (0, f, h, w) sits at (t, f, h, w).
  • `cover`: every output index (n, f, h, w) lies in the block of the point whose batch index is `n`.
  • `final`, `run`: so after the run the output array is `adder` of the padded array and the filter bank.
  • `padded_eq`: the padded array the region finds is the zero-padding, one row and column on each side of the two
    image axes, of the activations argument (the host operations before the region).
-/
import proofs.«163276_j24472723653052_1_alg».proof.Proof.KernelTaps
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.AdderSpec
open Idealize.ShloMosaic.Pipeline (Dat)

variable (m : (ℓ : Loc nD τ sig) → Buf (Elt Ideal) ℓ) (ρ : Dev nD → PrngReg)

/-- The offsets of a whole-buffer access, all zero. -/
theorem zeros4 : (![0, 0, 0, 0] : Fin 4 → Nat) = fun _ => 0 := funext fun a => by fin_cases a <;> rfl

/-- The block a point leaves, from the image block `x0` and the filter bank `x1` it staged: at (0, f, h, w) minus the
    sum over window positions and channels of `| x1 (f, c, kh, kw) - x0 (0, c, h + kh, w + kw) |`. -/
theorem out_eq (x0 : Vec Ideal S1x64x30x30 .f32) (x1 : Vec Ideal S64x64x3x3 .f32) (y : S1x64x28x28.Idx) :
    out0_2 x0 x1 y = -(∑ p : Fin 9, ∑ c : Fin 64, eabs (x1 (ix4 (y 1) c (winRow p) (winCol p))
          - x0 (ix4 (0 : Fin 1) c ⟨(y 2).val + (winRow p).val, by have h : (y 2).val < 28 := (y 2).isLt; omega⟩
              ⟨(y 3).val + (winCol p).val, by have h : (y 3).val < 28 := (y 3).isLt; omega⟩))) := by
  unfold out0_2
  simp only [View.ld_unit_zero (S := S1x64x30x30) zeros4, View.ld_unit_zero (S := S64x64x3x3) zeros4]
  exact (Value.canon2_eq x1 x0 y).trans (Taps.block_eq x1 x0 y)

/-- The index maps over the four grid points: the image block's batch index is the output block's, every other block
    index is 0, and the output's batch index is at most 3. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (0 : Fin 4) ≤ 3 ∧ win0_2.index t (1 : Fin 4) = 0
    ∧ win0_2.index t (2 : Fin 4) = 0 ∧ win0_2.index t (3 : Fin 4) = 0 :=
  (by decide +kernel : ∀ t : Fin grid0.N, _)

/-- Every batch index is the output block index of some grid point. -/
theorem idx_onto : ∀ q : Fin 4, ∃ t : Fin cfg0.N, win0_2.index t (0 : Fin 4) = q.val :=
  (by decide +kernel : ∀ q : Fin 4, ∃ t : Fin grid0.N, win0_2.index t (0 : Fin 4) = q.val)

/-- What point `t` writes back is block `t` of `adder` of the padded array and the filter bank as the region finds
    them. -/
theorem flushed_eq (c : Dev nD) (t : Fin cfg0.N) :
    (dats m 0 c).flushed 2 t
      = ((cfg0.win 2).blk t).view.read (Elt Ideal) (adder (V m c main_v0) (V m c main_arg1)) := by
  rw [Value.flushed2]
  funext (y : S1x64x28x28.Idx)
  show out0_2 (iblk m c 0 t) (iblk m c 1 t) y = adder (V m c main_v0) (V m c main_arg1) (((cfg0.win 2).blk t).view.emb y)
  refine (out_eq _ _ y).trans ?_
  unfold adder
  refine congrArg Neg.neg (Finset.sum_congr rfl fun p _ => Finset.sum_congr rfl fun cc _ => ?_)
  unfold tap
  obtain ⟨a0, a1, a2, a3, b0, b1, b2, b3, o0, o1, o2, o3⟩ := idx_facts t
  have hy0 : (y 0).val < 1 := (y 0).isLt
  have hy1 : (y 1).val < 64 := (y 1).isLt
  have hy2 : (y 2).val < 28 := (y 2).isLt
  have hy3 : (y 3).val < 28 := (y 3).isLt
  have hp : p.val < 9 := p.isLt
  -- the filter bank's one block is the whole bank: an entry of the staged block is that entry of the array
  have eW : iblk m c 1 t (ix4 (y 1) cc (winRow p) (winCol p))
      = V m c main_arg1 (ix4 ((((cfg0.win 2).blk t).view.emb y) 1) cc (winRow p) (winCol p)) := by
    show V m c main_arg1 (((cfg0.win 1).blk t).view.emb (ix4 (y 1) cc (winRow p) (winCol p))) = _
    refine congrArg _ (funext fun a => Fin.ext ?_)
    match a with
    | ⟨0, _⟩ => show win0_1.index t (0 : Fin 4) * 64 + 1 * (y 1).val = win0_2.index t (1 : Fin 4) * 64 + 1 * (y 1).val; omega
    | ⟨1, _⟩ => show win0_1.index t (1 : Fin 4) * 64 + 1 * cc.val = cc.val; omega
    | ⟨2, _⟩ => show win0_1.index t (2 : Fin 4) * 3 + 1 * (p.val / 3) = p.val / 3; omega
    | ⟨3, _⟩ => show win0_1.index t (3 : Fin 4) * 3 + 1 * (p.val % 3) = p.val % 3; omega
  -- the image block at point `t` is image `t` of the padded array, and the output block is image `t` of the output
  have eX : iblk m c 0 t (ix4 (0 : Fin 1) cc ⟨(y 2).val + (winRow p).val, by show (y 2).val + p.val / 3 < 30; omega⟩
        ⟨(y 3).val + (winCol p).val, by show (y 3).val + p.val % 3 < 30; omega⟩)
      = V m c main_v0 (ix4 ((((cfg0.win 2).blk t).view.emb y) 0) cc
          ⟨((((cfg0.win 2).blk t).view.emb y) 2).val + (winRow p).val, by
            show win0_2.index t (2 : Fin 4) * 28 + 1 * (y 2).val + p.val / 3 < 30; omega⟩
          ⟨((((cfg0.win 2).blk t).view.emb y) 3).val + (winCol p).val, by
            show win0_2.index t (3 : Fin 4) * 28 + 1 * (y 3).val + p.val % 3 < 30; omega⟩) := by
    show V m c main_v0 (((cfg0.win 0).blk t).view.emb _) = _
    refine congrArg _ (funext fun a => Fin.ext ?_)
    match a with
    | ⟨0, _⟩ => show win0_0.index t (0 : Fin 4) * 1 + 1 * 0 = win0_2.index t (0 : Fin 4) * 1 + 1 * (y 0).val; omega
    | ⟨1, _⟩ => show win0_0.index t (1 : Fin 4) * 64 + 1 * cc.val = cc.val; omega
    | ⟨2, _⟩ => show win0_0.index t (2 : Fin 4) * 30 + 1 * ((y 2).val + p.val / 3) = win0_2.index t (2 : Fin 4) * 28 + 1 * (y 2).val + p.val / 3; omega
    | ⟨3, _⟩ => show win0_0.index t (3 : Fin 4) * 30 + 1 * ((y 3).val + p.val % 3) = win0_2.index t (3 : Fin 4) * 28 + 1 * (y 3).val + p.val % 3; omega
  exact congrArg₂ (fun a b : EReal => eabs (a - b)) eW eX

/-- An output index is in point `t`'s block iff each coordinate is in the block's range on its axis. -/
theorem mem_blk (t : Fin cfg0.N) (i : S4x64x28x28.Idx) :
    i ∈ ((cfg0.win 2).blk t).view.set ↔ ∀ a : Fin 4, win0_2.index t a * S1x64x28x28.size a ≤ (i a).val
      ∧ (i a).val < win0_2.index t a * S1x64x28x28.size a + S1x64x28x28.size a := by
  show i ∈ ((View.whole main_v1).slice (win0_2.rect t)).set ↔ _
  rw [View.set_slice_whole, Rect.mem_set_unit]
  exact Iff.rfl

/-- Every output index (n, f, h, w) is in the block of the point whose batch index is `n`. -/
theorem cover (i : S4x64x28x28.Idx) :
    ∃ t : Fin cfg0.N, (cfg0.win 2).flush t = true ∧ i ∈ ((cfg0.win 2).blk t).view.set := by
  obtain ⟨t, ht⟩ := idx_onto (i 0)
  obtain ⟨-, -, -, -, -, -, -, -, -, o1, o2, o3⟩ := idx_facts t
  have h1 : (i 1).val < 64 := (i 1).isLt
  have h2 : (i 2).val < 28 := (i 2).isLt
  have h3 : (i 3).val < 28 := (i 3).isLt
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 28 ≤ (i 2).val ∧ (i 2).val < win0_2.index t (2 : Fin 4) * 28 + 28; omega
  | ⟨3, _⟩ => show win0_2.index t (3 : Fin 4) * 28 ≤ (i 3).val ∧ (i 3).val < win0_2.index t (3 : Fin 4) * 28 + 28; omega

/-- After the run the output array is `adder` of the padded array and the filter bank as the region finds them. -/
theorem final (c : Dev nD) : (dats m 0 c).arrAt 2 cfg0.N = adder (V m c main_v0) (V m c main_arg1) :=
  (dats m 0 c).arrAt_eq_of_cover 2 _ (fun t _ => flushed_eq m c t) cover

/-- The padded array the region finds: the activations argument padded with the float of the integer 0, one row and one
    column on each side of the two image axes. -/
theorem padded_eq (c : Dev nD) : (V m c main_v0 : S4x64x30x30.Idx → EReal)
    = pad S4x64x30x30 ![0, 0, 1, 1] ![0, 0, 1, 1] ![0, 0, 0, 0] (m ((c : Thread nD τ).loc main_arg0))
        (sitofp (F := Ideal) .f32 (constantI S_ 32 0#32)) pads_S4x64x28x28_S4x64x30x30_000_000_110_110 h_S_ := by
  dsimp only [V]
  simp only [hostOps0, hostOps0_1, List.flatten_cons, List.flatten_nil, List.append_nil, List.cons_append, List.nil_append]
  after_results
  rfl

/-- The kernel program's run: every execution ends with the result array at `adder` of the padded array and the filter
    bank argument, the two arguments unchanged. -/
theorem run : θ_run defs (onTc (τ := τ) (main (F := Ideal))) ⟨m, fun _ => 0, ρ⟩ fun r => ∀ c : Dev nD,
      r.2.mem ((c : Thread nD τ).loc main_v1) = adder (V m c main_v0) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg1])), (h c).2⟩)
    (Value.run_blocks m ρ)

end Cert.KernelIdeal.Whole

end
-- ==== Proof.RefValue.lean ====
/-
  The reference, read at an index of its result, over the extended reals.

  The reference builds the patch matrix of the padded activations: nine shifted [4, 64, 28, 28] copies of the padded
  array (copy `p` shifted by `p / 3` rows and `p % 3` columns) are stacked on a new axis to [4, 64, 9, 28, 28],
  flattened to [4, 576, 784] (row `9 c + p`, position `28 h + w`), the batch axis is moved last and merged into the
  positions, [576, 3136] (column `4 · (28 h + w) + n`). The filter bank is flattened to [64, 576] (column
  `9 c + 3 kh + kw`). Every filter row is compared with every column: the absolute differences over a [64, 576, 3136]
  array are summed over the middle axis from zero, negated, and the [64, 3136] result is unflattened and transposed
  back to [4, 64, 28, 28].

  • `filt_read`: at output (n, f, h, w) and flattened term `k = 9 c + p`, the filter operand is `wt (f, c, p / 3, p % 3)`.
  • `patch_read`: copy `p` of the stack at (n, c, h, w) is the padded array at (n, c, h + p / 3, w + p % 3) — nine
    cases, one per copy, each a slice of the padded array read through a broadcast that inserts the stacking axis.
  • `col_idx`, `unflat_idx`, `act_read`: the activation operand there is the padded array at that same entry: the
    column `4 · (28 h + w) + n` splits back into position and image, the row `9 c + p` into channel and copy.
  • `stage_eq`: so the result is the layer's formula `adder` of the padded array and the filter bank: the sum over
    `k < 576` is the double sum over the nine copies and the 64 channels, and the float zero it starts from is 0.
-/
import proofs.«163276_j24472723653052_1_alg».proof.Proof.Gen.ReferenceIdeal.Read
import proofs.«163276_j24472723653052_1_alg».proof.Proof.AdderSpec

noncomputable section

open scoped BigOperators

namespace Cert.ReferenceIdeal.Whole

open Cert.ReferenceIdeal Cert.ReferenceIdeal.Read Idealize.ShloMosaic Idealize.ShloMosaic.ValueIdx Cert.AdderSpec

variable [Cert.ReferenceIdeal.Facts]
open Cert.ReferenceIdeal.Facts₀ Cert.ReferenceIdeal.Facts

/-- Where output (n, f, h, w) and flattened term `k` sit in the [64, 576, 3136] array of differences:
    (f, k, 4 · (28 h + w) + n). -/
abbrev pos (n : Fin 4) (f : Fin 64) (h w : Fin 28) (k : Fin 576) : S64x576x3136.Idx :=
  idx_main_v30 (idx_main_v32 (idx_main_v33 (ix4 n f h w))) k

/-- The filter operand of term `k = 9 c + p` at output (n, f, h, w) is `x1 (f, c, p / 3, p % 3)`. -/
theorem filt_read (x1 : (⟨S64x64x3x3, .f32⟩ : BufTy).Contents (Elt Ideal)) (n : Fin 4) (f : Fin 64) (h w : Fin 28) (c : Fin 64) (p : Fin 9) :
    val_main_v26 (F := Ideal) x1 (pos n f h w ⟨9 * c.val + p.val, by omega⟩) = x1 (ix4 f c (winRow p) (winCol p)) := by
  rw [val_main_v26_apply, val_main_v24_apply, val_main_v23_apply]
  refine congrArg x1 (funext fun a => Fin.ext ?_)
  have hn := n.isLt; have hf := f.isLt; have hh := h.isLt; have hw := w.isLt; have hc := c.isLt; have hp := p.isLt
  match a with
  | ⟨0, _⟩ => dsimp only [pos, idx_main_v23, idx_main_v24, idx_main_v26, idx_main_v30, idx_main_v32, idx_main_v33, ix4]; omega
  | ⟨1, _⟩ => dsimp only [pos, idx_main_v23, idx_main_v24, idx_main_v26, idx_main_v30, idx_main_v32, idx_main_v33, ix4]; omega
  | ⟨2, _⟩ => dsimp only [pos, idx_main_v23, idx_main_v24, idx_main_v26, idx_main_v30, idx_main_v32, idx_main_v33, ix4]; omega
  | ⟨3, _⟩ => dsimp only [pos, idx_main_v23, idx_main_v24, idx_main_v26, idx_main_v30, idx_main_v32, idx_main_v33, ix4]; omega

/-- An index of the padded array is determined by its four coordinates. -/
theorem pad_idx (I : S4x64x30x30.Idx) (n : Fin 4) (c : Fin 64) (a b : Fin 30)
    (h0 : (I 0).val = n.val) (h1 : (I 1).val = c.val) (h2 : (I 2).val = a.val) (h3 : (I 3).val = b.val) : I = ix4 n c a b :=
  funext fun d => Fin.ext (match d with | ⟨0, _⟩ => h0 | ⟨1, _⟩ => h1 | ⟨2, _⟩ => h2 | ⟨3, _⟩ => h3)

/-- The nine shifted copies of the padded array, in stacking order. -/
abbrev copies (x0 : (⟨S4x64x28x28, .f32⟩ : BufTy).Contents (Elt Ideal)) : List ((s : Shape) × (s.Idx → EReal)) :=
  [⟨S4x64x1x28x28, val_main_v10 (F := Ideal) x0⟩, ⟨S4x64x1x28x28, val_main_v11 (F := Ideal) x0⟩, ⟨S4x64x1x28x28, val_main_v12 (F := Ideal) x0⟩,
   ⟨S4x64x1x28x28, val_main_v13 (F := Ideal) x0⟩, ⟨S4x64x1x28x28, val_main_v14 (F := Ideal) x0⟩, ⟨S4x64x1x28x28, val_main_v15 (F := Ideal) x0⟩,
   ⟨S4x64x1x28x28, val_main_v16 (F := Ideal) x0⟩, ⟨S4x64x1x28x28, val_main_v17 (F := Ideal) x0⟩, ⟨S4x64x1x28x28, val_main_v18 (F := Ideal) x0⟩]

/-- The stack at (n, c, k, h, w) is copy `k` at (n, c, 0, h, w): each copy has extent one along the stacking axis, so `k`
    copies precede copy `k`. -/
theorem stack_piece (x0 : (⟨S4x64x28x28, .f32⟩ : BufTy).Contents (Elt Ideal)) (k : Nat) (hk : k < 9)
    (vk : S4x64x1x28x28.Idx → EReal) (hxk : (copies x0)[k]'(by simpa using hk) = ⟨S4x64x1x28x28, vk⟩)
    (hpre : ((((copies x0).take k).map (·.1)).map fun s => if h : s.rank = S4x64x9x28x28.rank then s.size ((2 : Fin 5).cast h.symm) else 0).sum = k)
    (n : Fin 4) (c : Fin 64) (h w : Fin 28) :
    val_main_v19 (F := Ideal) x0 (ix5 n c ⟨k, hk⟩ h w) = vk (ix5 n c (0 : Fin 1) h w) := by
  unfold val_main_v19
  exact concatenate_apply_piece (2 : Fin 5) (copies x0) _ (ix5 n c ⟨k, hk⟩ h w) k (by simpa using hk) S4x64x1x28x28 vk hxk rfl k hpre
    (ix5 n c (0 : Fin 1) h w)
    (fun b hb => match b, hb with
      | ⟨0, _⟩, _ => rfl | ⟨1, _⟩, _ => rfl | ⟨2, _⟩, hb => absurd rfl hb | ⟨3, _⟩, _ => rfl | ⟨4, _⟩, _ => rfl)
    (by show k + 0 = k; omega)

/-- Copy `p` of the stack, at (n, c, h, w), is the padded array at (n, c, h + p / 3, w + p % 3): copy `p` is the slice
    of the padded array at row offset `p / 3` and column offset `p % 3`, with the stacking axis inserted. -/
theorem patch_read (x0 : (⟨S4x64x28x28, .f32⟩ : BufTy).Contents (Elt Ideal)) (n : Fin 4) (c : Fin 64) (h w : Fin 28) (p : Fin 9) :
    val_main_v19 (F := Ideal) x0 (ix5 n c p h w)
      = val_main_v0 (F := Ideal) x0 (ix4 n c ⟨h.val + (winRow p).val, by have := h.isLt; omega⟩ ⟨w.val + (winCol p).val, by have := w.isLt; omega⟩) := by
  have hh := h.isLt; have hw := w.isLt
  match p with
  | ⟨0, _⟩ =>
    refine (stack_piece x0 0 (by omega) _ rfl rfl n c h w).trans ?_
    rw [val_main_v10_apply, val_main_v1_apply]
    refine congrArg _ (pad_idx _ n c _ _ rfl rfl ?_ ?_) <;> (dsimp only [idx_main_v1, idx_main_v10, ix5]; omega)
  | ⟨1, _⟩ =>
    refine (stack_piece x0 1 (by omega) _ rfl rfl n c h w).trans ?_
    rw [val_main_v11_apply, val_main_v2_apply]
    refine congrArg _ (pad_idx _ n c _ _ rfl rfl ?_ ?_) <;> (dsimp only [idx_main_v2, idx_main_v11, ix5]; omega)
  | ⟨2, _⟩ =>
    refine (stack_piece x0 2 (by omega) _ rfl rfl n c h w).trans ?_
    rw [val_main_v12_apply, val_main_v3_apply]
    refine congrArg _ (pad_idx _ n c _ _ rfl rfl ?_ ?_) <;> (dsimp only [idx_main_v3, idx_main_v12, ix5]; omega)
  | ⟨3, _⟩ =>
    refine (stack_piece x0 3 (by omega) _ rfl rfl n c h w).trans ?_
    rw [val_main_v13_apply, val_main_v4_apply]
    refine congrArg _ (pad_idx _ n c _ _ rfl rfl ?_ ?_) <;> (dsimp only [idx_main_v4, idx_main_v13, ix5]; omega)
  | ⟨4, _⟩ =>
    refine (stack_piece x0 4 (by omega) _ rfl rfl n c h w).trans ?_
    rw [val_main_v14_apply, val_main_v5_apply]
    refine congrArg _ (pad_idx _ n c _ _ rfl rfl ?_ ?_) <;> (dsimp only [idx_main_v5, idx_main_v14, ix5]; omega)
  | ⟨5, _⟩ =>
    refine (stack_piece x0 5 (by omega) _ rfl rfl n c h w).trans ?_
    rw [val_main_v15_apply, val_main_v6_apply]
    refine congrArg _ (pad_idx _ n c _ _ rfl rfl ?_ ?_) <;> (dsimp only [idx_main_v6, idx_main_v15, ix5]; omega)
  | ⟨6, _⟩ =>
    refine (stack_piece x0 6 (by omega) _ rfl rfl n c h w).trans ?_
    rw [val_main_v16_apply, val_main_v7_apply]
    refine congrArg _ (pad_idx _ n c _ _ rfl rfl ?_ ?_) <;> (dsimp only [idx_main_v7, idx_main_v16, ix5]; omega)
  | ⟨7, _⟩ =>
    refine (stack_piece x0 7 (by omega) _ rfl rfl n c h w).trans ?_
    rw [val_main_v17_apply, val_main_v8_apply]
    refine congrArg _ (pad_idx _ n c _ _ rfl rfl ?_ ?_) <;> (dsimp only [idx_main_v8, idx_main_v17, ix5]; omega)
  | ⟨8, _⟩ =>
    refine (stack_piece x0 8 (by omega) _ rfl rfl n c h w).trans ?_
    rw [val_main_v18_apply, val_main_v9_apply]
    refine congrArg _ (pad_idx _ n c _ _ rfl rfl ?_ ?_) <;> (dsimp only [idx_main_v9, idx_main_v18, ix5]; omega)

/-- The column of the [576, 3136] patch matrix that output (n, f, h, w) reads: row `k`, column `4 · (28 h + w) + n`,
    which in the [576, 784, 4] array is (k, 28 h + w, n). -/
theorem col_idx (n : Fin 4) (f : Fin 64) (h w : Fin 28) (k : Fin 576) :
    idx_main_v22 (idx_main_v25 (idx_main_v27 (pos n f h w k)))
      = ix3 k (⟨28 * h.val + w.val, by have := h.isLt; have := w.isLt; omega⟩ : Fin 784) n := by
  refine funext fun a => Fin.ext ?_
  have hn := n.isLt; have hf := f.isLt; have hh := h.isLt; have hw := w.isLt; have hk := k.isLt
  match a with
  | ⟨0, _⟩ => dsimp only [pos, idx_main_v22, idx_main_v25, idx_main_v27, idx_main_v30, idx_main_v32, idx_main_v33, ix4, ix3]; omega
  | ⟨1, _⟩ => dsimp only [pos, idx_main_v22, idx_main_v25, idx_main_v27, idx_main_v30, idx_main_v32, idx_main_v33, ix4, ix3]; omega
  | ⟨2, _⟩ => dsimp only [pos, idx_main_v22, idx_main_v25, idx_main_v27, idx_main_v30, idx_main_v32, idx_main_v33, ix4, ix3]; omega

/-- Row `9 c + p` and position `28 h + w` of image `n` in the [4, 576, 784] array is (n, c, p, h, w) in the stack. -/
theorem unflat_idx (n : Fin 4) (c : Fin 64) (p : Fin 9) (h w : Fin 28) :
    idx_main_v20 (idx_main_v21 (ix3 (⟨9 * c.val + p.val, by have := c.isLt; have := p.isLt; omega⟩ : Fin 576)
        (⟨28 * h.val + w.val, by have := h.isLt; have := w.isLt; omega⟩ : Fin 784) n))
      = ix5 n c p h w := by
  refine funext fun a => Fin.ext ?_
  have hn := n.isLt; have hc := c.isLt; have hp := p.isLt; have hh := h.isLt; have hw := w.isLt
  match a with
  | ⟨0, _⟩ => dsimp only [idx_main_v20, idx_main_v21, ix3, ix5]; omega
  | ⟨1, _⟩ => dsimp only [idx_main_v20, idx_main_v21, ix3, ix5]; omega
  | ⟨2, _⟩ => dsimp only [idx_main_v20, idx_main_v21, ix3, ix5]; omega
  | ⟨3, _⟩ => dsimp only [idx_main_v20, idx_main_v21, ix3, ix5]; omega
  | ⟨4, _⟩ => dsimp only [idx_main_v20, idx_main_v21, ix3, ix5]; omega

/-- The activation operand of term `k = 9 c + p` at output (n, f, h, w) is the padded array at
    (n, c, h + p / 3, w + p % 3). -/
theorem act_read (x0 : (⟨S4x64x28x28, .f32⟩ : BufTy).Contents (Elt Ideal)) (n : Fin 4) (f : Fin 64) (h w : Fin 28) (c : Fin 64) (p : Fin 9) :
    val_main_v27 (F := Ideal) x0 (pos n f h w ⟨9 * c.val + p.val, by omega⟩)
      = val_main_v0 (F := Ideal) x0 (ix4 n c ⟨h.val + (winRow p).val, by have := h.isLt; omega⟩ ⟨w.val + (winCol p).val, by have := w.isLt; omega⟩) := by
  rw [val_main_v27_apply, val_main_v25_apply, val_main_v22_apply, val_main_v21_apply, val_main_v20_apply]
  refine (congrArg (fun I => val_main_v19 (F := Ideal) x0 (idx_main_v20 (idx_main_v21 I))) (col_idx n f h w _)).trans ?_
  exact (congrArg (val_main_v19 (F := Ideal) x0) (unflat_idx n c p h w)).trans (patch_read x0 n c h w p)

/-- The reference's result, as a function of its two arguments, is `adder` of the padded activations and the filter
    bank. -/
theorem stage_eq (x0 : (⟨S4x64x28x28, .f32⟩ : BufTy).Contents (Elt Ideal)) (x1 : (⟨S64x64x3x3, .f32⟩ : BufTy).Contents (Elt Ideal)) :
    val_main_v33 (F := Ideal) x0 x1 = adder (val_main_v0 (F := Ideal) x0) x1 := by
  funext i
  obtain ⟨n, f, h, w, rfl⟩ : ∃ (n : Fin 4) (f : Fin 64) (h w : Fin 28), i = ix4 n f h w := ⟨i 0, i 1, i 2, i 3, eq_ix4 i⟩
  rw [val_main_v33_apply, val_main_v32_apply, val_main_v31_apply, val_main_v30_apply]
  unfold adder
  show -(Ideal.ofBits .f32 0x00000000#32 + ∑ k : Fin 576, val_main_v29 (F := Ideal) x0 x1 (pos n f h w k)) = _
  rw [Ideal.ofBits_zero_f32, zero_add, sum_flat576]
  refine congrArg Neg.neg (Finset.sum_congr rfl fun p _ => Finset.sum_congr rfl fun c _ => ?_)
  rw [val_main_v29_apply, val_main_v28_apply]
  unfold tap
  exact congrArg₂ (fun a b : EReal => max (a - b) (-(a - b))) (filt_read x1 n f h w c p) (act_read x0 n f h w c p)

end Cert.ReferenceIdeal.Whole

end
-- ==== Proof.lean ====
/-
  An "adder" layer: a convolution-shaped layer in which the product of a filter with an image patch is replaced by
  minus their L1 distance. With `xp` the activations [4, 64, 28, 28] zero-padded by one row and one column on each side
  of the two image axes, and `wt` the filter bank [64, 64, 3, 3],

      out (n, f, h, w) = -( ∑ over channels c < 64 and window positions (kh, kw) < 3 × 3 of
                              | wt (f, c, kh, kw) - xp (n, c, h + kh, w + kw) | ).

  The kernel runs one image of the batch per grid point: it holds the padded image and the whole filter bank, forms
  for each of the nine window positions the absolute differences over a [filter, channel, row, column] array, sums over
  the channel axis, accumulates the nine sums from zero and stores zero minus the total. The reference builds the
  [576, 3136] patch matrix of the padded activations and the [64, 576] matrix of flattened filters, and for every
  (filter, column) pair sums the 576 absolute differences in one reduction, then negates and unflattens.

  Over the extended reals both are the function `adder` (Proof/AdderSpec.lean) of the SAME padded array and the filter
  bank: the kernel adds the 576 terms as nine channel sums accumulated one after the other, the reference as one sum
  over `k = 9 c + 3 kh + kw`; the two orders agree because addition of extended reals is commutative and associative,
  and `0 - s = -s`. Nothing here needs the entries to be finite, so the precondition is never opened.
  Proof/KernelTaps.lean reads one grid point's block at an index, Proof/KernelArray.lean assembles the four blocks into
  the output array, Proof/RefValue.lean reads the reference's result at an index.

  The three frame claims: the kernel's two are the frames of its two readings; the reference has no kernel, and its
  frame is its run with the result dropped. The idealization rewrote nothing, so `preserves` is trivial.
-/
import proofs.«163276_j24472723653052_1_alg».proof.Defs
import proofs.«163276_j24472723653052_1_alg».proof.Proof.Gen.Kernel
import proofs.«163276_j24472723653052_1_alg».proof.Proof.Gen.Kernel.Skeleton
import proofs.«163276_j24472723653052_1_alg».proof.Proof.Gen.Kernel.Launch
import proofs.«163276_j24472723653052_1_alg».proof.Proof.Gen.Kernel.Points
import proofs.«163276_j24472723653052_1_alg».proof.Proof.Gen.Kernel.Frame
import proofs.«163276_j24472723653052_1_alg».proof.Proof.Gen.KernelIdeal
import proofs.«163276_j24472723653052_1_alg».proof.Proof.Gen.KernelIdeal.Skeleton
import proofs.«163276_j24472723653052_1_alg».proof.Proof.Gen.KernelIdeal.Launch
import proofs.«163276_j24472723653052_1_alg».proof.Proof.Gen.KernelIdeal.Points
import proofs.«163276_j24472723653052_1_alg».proof.Proof.Gen.KernelIdeal.Frame
import proofs.«163276_j24472723653052_1_alg».proof.Proof.Gen.ReferenceIdeal
import proofs.«163276_j24472723653052_1_alg».proof.Proof.Gen.Pre_finite_inputs
import proofs.«163276_j24472723653052_1_alg».proof.Proof.Gen.KernelIdeal.Value
import proofs.«163276_j24472723653052_1_alg».proof.Proof.Gen.ReferenceIdeal.Run
import proofs.«163276_j24472723653052_1_alg».proof.Proof.Gen.ReferenceIdeal.Read
import proofs.«163276_j24472723653052_1_alg».proof.Proof.KernelArray
import proofs.«163276_j24472723653052_1_alg».proof.Proof.RefValue
import Idealize.ShloMosaic.Adequacy
import Idealize.ShloMosaic.Init

noncomputable section

namespace Cert.Proof

open Idealize.ShloMosaic Idealize.ShloMosaic.TcCoe Idealize.SL.Sem Cert.AdderSpec

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs pad alike: the padded array the kernel's region finds is the reference's padded array of the same
    activations (the same pad, by one row and one column of the float of the integer 0, on each side). -/
theorem padded_agree (m : (ℓ : Loc Cert.KernelIdeal.nD Cert.KernelIdeal.τ Cert.KernelIdeal.sig) → Buf (Elt Ideal) ℓ)
    (c : Dev Cert.KernelIdeal.nD) :
    Cert.KernelIdeal.Gen.V m c Cert.KernelIdeal.main_v0
      = Cert.ReferenceIdeal.Read.val_main_v0 (F := Ideal)
          (m ((c.tc : Thread Cert.KernelIdeal.nD Cert.KernelIdeal.τ).loc Cert.KernelIdeal.main_arg0)) := by
  rw [Cert.KernelIdeal.Whole.padded_eq]
  rfl

/-- Over the extended reals, from memories that agree on the two arguments, the kernel and the reference both end
    with `adder` of the padded activations and the filter bank in their result arrays. -/
theorem algebraic : Cert.algebraic_KernelIdeal_ReferenceIdeal := by
  intro m ρ m' ρ' _ hagree
  refine ⟨fun c => adder (Cert.KernelIdeal.Gen.V m c Cert.KernelIdeal.main_v0)
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Whole.stage_eq, (hagree c).1, (hagree c).2,
    ← padded_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
